-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S65536x128 : Shape := ⟨2, ![65536, 128]⟩
abbrev S8x128x32 : Shape := ⟨3, ![8, 128, 32]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn {F : FTy → Type} [FloatOps F] (main_arg0 : FVec F S4096x128 .f32) (main_arg1 : IVec S4096 32) (main_arg2 : FVec F S65536x128 .f32) (main_arg3 : IVec S8x128x32 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S65536x128 .f32 := Host.absf main_arg2
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  main_v8
-- ==== Kernel.lean ====
abbrev S4096x128 : Shape := ⟨2, ![4096, 128]⟩
abbrev S4096 : Shape := ⟨1, ![4096]⟩
abbrev S65536x128 : Shape := ⟨2, ![65536, 128]⟩
abbrev S8x128x32 : Shape := ⟨3, ![8, 128, 32]⟩
abbrev S128x32x128 : Shape := ⟨3, ![128, 32, 128]⟩
abbrev S1x128x32x128 : Shape := ⟨4, ![1, 128, 32, 128]⟩
abbrev S8x128x32x1 : Shape := ⟨4, ![8, 128, 32, 1]⟩
abbrev S_ : Shape := ⟨0, ![]⟩
abbrev S1 : Shape := ⟨1, ![1]⟩
abbrev S1x1x1x1 : Shape := ⟨4, ![1, 1, 1, 1]⟩
abbrev S8x128x32x128 : Shape := ⟨4, ![8, 128, 32, 128]⟩
abbrev S8x128x128 : Shape := ⟨3, ![8, 128, 128]⟩
abbrev S1024x128 : Shape := ⟨2, ![1024, 128]⟩
abbrev S1024 : Shape := ⟨1, ![1024]⟩
abbrev S1x1024 : Shape := ⟨2, ![1, 1024]⟩
abbrev S128x1024 : Shape := ⟨2, ![128, 1024]⟩
abbrev S2048x128 : Shape := ⟨2, ![2048, 128]⟩
abbrev S2048 : Shape := ⟨1, ![2048]⟩
abbrev S2048x1 : Shape := ⟨2, ![2048, 1]⟩
abbrev S128x128 : Shape := ⟨2, ![128, 128]⟩
abbrev S1x128 : Shape := ⟨2, ![1, 128]⟩

abbrev nBuf : Space → Nat
  | .hbm => 43
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S65536x128, .f32⟩
  | .hbm, ⟨3, _⟩ => ⟨S8x128x32, .i32⟩
  | .hbm, ⟨4, _⟩ => ⟨S128x32x128, .f32⟩
  | .hbm, ⟨5, _⟩ => ⟨S1x128x32x128, .f32⟩
  | .hbm, ⟨6, _⟩ => ⟨S8x128x32x1, .i32⟩
  | .hbm, ⟨7, _⟩ => ⟨S_, .i32⟩
  | .hbm, ⟨8, _⟩ => ⟨S8x128x32x1, .i32⟩
  | .hbm, ⟨9, _⟩ => ⟨S8x128x32x1, .i1⟩
  | .hbm, ⟨10, _⟩ => ⟨S_, .i32⟩
  | .hbm, ⟨11, _⟩ => ⟨S8x128x32x1, .i32⟩
  | .hbm, ⟨12, _⟩ => ⟨S8x128x32x1, .i32⟩
  | .hbm, ⟨13, _⟩ => ⟨S8x128x32x1, .i32⟩
  | .hbm, ⟨14, _⟩ => ⟨S128x32x128, .f32⟩
  | .hbm, ⟨15, _⟩ => ⟨S1, .i32⟩
  | .hbm, ⟨16, _⟩ => ⟨S_, .i32⟩
  | .hbm, ⟨17, _⟩ => ⟨S8x128x32x1, .i32⟩
  | .hbm, ⟨18, _⟩ => ⟨S8x128x32x1, .i1⟩
  | .hbm, ⟨19, _⟩ => ⟨S1x1x1x1, .i32⟩
  | .hbm, ⟨20, _⟩ => ⟨S8x128x32x1, .i32⟩
  | .hbm, ⟨21, _⟩ => ⟨S8x128x32x1, .i1⟩
  | .hbm, ⟨22, _⟩ => ⟨S8x128x32x1, .i1⟩
  | .hbm, ⟨23, _⟩ => ⟨S_, .i1⟩
  | .hbm, ⟨24, _⟩ => ⟨S8x128x32, .i1⟩
  | .hbm, ⟨25, _⟩ => ⟨S8x128x32x128, .f32⟩
  | .hbm, ⟨26, _⟩ => ⟨S8x128x32x128, .i1⟩
  | .hbm, ⟨27, _⟩ => ⟨S_, .f32⟩
  | .hbm, ⟨28, _⟩ => ⟨S8x128x32x128, .f32⟩
  | .hbm, ⟨29, _⟩ => ⟨S8x128x32x128, .f32⟩
  | .hbm, ⟨30, _⟩ => ⟨S_, .f32⟩
  | .hbm, ⟨31, _⟩ => ⟨S8x128x128, .f32⟩
  | .hbm, ⟨32, _⟩ => ⟨S_, .f32⟩
  | .hbm, ⟨33, _⟩ => ⟨S8x128x128, .f32⟩
  | .hbm, ⟨34, _⟩ => ⟨S8x128x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1024x128, .bf16⟩
  | .hbm, ⟨41, _⟩ => ⟨S128x1024, .bf16⟩
  | .hbm, ⟨42, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S128x1024, .bf16⟩
  | .local _ .vmem, ⟨3, _⟩ => ⟨S1x1024, .f32⟩
  | .local _ .vmem, ⟨4, _⟩ => ⟨S2048x128, .f32⟩
  | .local _ .vmem, ⟨5, _⟩ => ⟨S2048x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x128_S128x32x128 : S4096x128.ShapeCasts S128x32x128
  bcast_S128x32x128_S1x128x32x128_1_2_3 : S128x32x128.BroadcastsInDim S1x128x32x128 (![1, 2, 3] : Fin 3 → Fin S1x128x32x128.rank)
  bcast_S8x128x32_S8x128x32x1_0_1_2 : S8x128x32.BroadcastsInDim S8x128x32x1 (![0, 1, 2] : Fin 3 → Fin S8x128x32x1.rank)
  bcast_S_S8x128x32x1 : S_.BroadcastsInDim S8x128x32x1 (![] : Fin 0 → Fin S8x128x32x1.rank)
  shapeCasts_S1x128x32x128_S128x32x128 : S1x128x32x128.ShapeCasts S128x32x128
  bcast_S1_S1x1x1x1_3 : S1.BroadcastsInDim S1x1x1x1 (![3] : Fin 1 → Fin S1x1x1x1.rank)
  bcast_S1x1x1x1_S8x128x32x1_0_1_2_3 : S1x1x1x1.BroadcastsInDim S8x128x32x1 (![0, 1, 2, 3] : Fin 4 → Fin S8x128x32x1.rank)
  reducesTo_S8x128x32x1_S8x128x32_d3 : S8x128x32x1.ReducesTo [3] S8x128x32
  h_S_ : 0 < S_.numel
  bcast_S8x128x32_S8x128x32x128_0_1_2 : S8x128x32.BroadcastsInDim S8x128x32x128 (![0, 1, 2] : Fin 3 → Fin S8x128x32x128.rank)
  bcast_S_S8x128x32x128 : S_.BroadcastsInDim S8x128x32x128 (![] : Fin 0 → Fin S8x128x32x128.rank)
  reducesTo_S8x128x32x128_S8x128x128_d2 : S8x128x32x128.ReducesTo [2] S8x128x128
  bcast_S_S8x128x128 : S_.BroadcastsInDim S8x128x128 (![] : Fin 0 → Fin S8x128x128.rank)
  shapeCasts_S8x128x128_S1024x128 : S8x128x128.ShapeCasts S1024x128
  reducesTo_S1024x128_S1024_d1 : S1024x128.ReducesTo [1] S1024
  shapeCasts_S1024_S1x1024 : S1024.ShapeCasts S1x1024
  bitsLt_bf16_f32 : FTy.bits .bf16 < FTy.bits .f32
  transposes_S1024x128_S128x1024_1_0 : S1024x128.Transposes [1, 0] S128x1024
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  inb_S128x1024_S128x128_0_0 : ∀ a, (![0, 0] : Fin 2 → Nat) a + S128x128.size a ≤ S128x1024.size a
  h_S128x128 : 0 < S128x128.numel
  shapeCasts_S128x128_S128x128 : S128x128.ShapeCasts S128x128
  inb_S1x1024_S1x128_0_0 : ∀ a, (![0, 0] : Fin 2 → Nat) a + S1x128.size a ≤ S1x1024.size a
  h_S1x128 : 0 < S1x128.numel
  shapeCasts_S1x128_S1x128 : S1x128.ShapeCasts S1x128
  broadcasts_S2048x1_S2048x128 : S2048x1.Broadcasts S2048x128
  broadcasts_S1x128_S2048x128 : S1x128.Broadcasts S2048x128
  inb_S128x1024_S128x128_0_128 : ∀ a, (![0, 128] : Fin 2 → Nat) a + S128x128.size a ≤ S128x1024.size a
  inb_S1x1024_S1x128_0_128 : ∀ a, (![0, 128] : Fin 2 → Nat) a + S1x128.size a ≤ S1x1024.size a
  inb_S128x1024_S128x128_0_256 : ∀ a, (![0, 256] : Fin 2 → Nat) a + S128x128.size a ≤ S128x1024.size a
  inb_S1x1024_S1x128_0_256 : ∀ a, (![0, 256] : Fin 2 → Nat) a + S1x128.size a ≤ S1x1024.size a
  inb_S128x1024_S128x128_0_384 : ∀ a, (![0, 384] : Fin 2 → Nat) a + S128x128.size a ≤ S128x1024.size a
  inb_S1x1024_S1x128_0_384 : ∀ a, (![0, 384] : Fin 2 → Nat) a + S1x128.size a ≤ S1x1024.size a
  inb_S128x1024_S128x128_0_512 : ∀ a, (![0, 512] : Fin 2 → Nat) a + S128x128.size a ≤ S128x1024.size a
  inb_S1x1024_S1x128_0_512 : ∀ a, (![0, 512] : Fin 2 → Nat) a + S1x128.size a ≤ S1x1024.size a
  inb_S128x1024_S128x128_0_640 : ∀ a, (![0, 640] : Fin 2 → Nat) a + S128x128.size a ≤ S128x1024.size a
  inb_S1x1024_S1x128_0_640 : ∀ a, (![0, 640] : Fin 2 → Nat) a + S1x128.size a ≤ S1x1024.size a
  inb_S128x1024_S128x128_0_768 : ∀ a, (![0, 768] : Fin 2 → Nat) a + S128x128.size a ≤ S128x1024.size a
  inb_S1x1024_S1x128_0_768 : ∀ a, (![0, 768] : Fin 2 → Nat) a + S1x128.size a ≤ S1x1024.size a
  inb_S128x1024_S128x128_0_896 : ∀ a, (![0, 896] : Fin 2 → Nat) a + S128x128.size a ≤ S128x1024.size a
  inb_S1x1024_S1x128_0_896 : ∀ a, (![0, 896] : Fin 2 → Nat) a + S1x128.size a ≤ S1x1024.size a
  gather_S128x32x128_S8x128x32x1_S8x128x32x128_3_1_0_1_1_3_11128_wf : GatherDims.WF S128x32x128 S8x128x32x1 S8x128x32x128 [3] [1] [0] [1] [1] 3 ![1, 1, 128]
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)

variable [Facts₀]

def gather_S128x32x128_S8x128x32x1_S8x128x32x128_3_1_0_1_1_3_11128 : GatherDims S128x32x128 S8x128x32x1 S8x128x32x128 where
  offsetDims := [3]
  collapsedSliceDims := [1]
  operandBatchingDims := [0]
  startIndicesBatchingDims := [1]
  startIndexMap := [1]
  indexVectorDim := 3
  sliceSizes := ![1, 1, 128]
  wf := gather_S128x32x128_S8x128x32x1_S8x128x32x128_3_1_0_1_1_3_11128_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S65536x128 : Shape := ⟨2, ![65536, 128]⟩
abbrev S8x128x32 : Shape := ⟨3, ![8, 128, 32]⟩
abbrev S128x32x128 : Shape := ⟨3, ![128, 32, 128]⟩
abbrev S1x128x32x128 : Shape := ⟨4, ![1, 128, 32, 128]⟩
abbrev S8x128x32x1 : Shape := ⟨4, ![8, 128, 32, 1]⟩
abbrev S_ : Shape := ⟨0, ![]⟩
abbrev S1 : Shape := ⟨1, ![1]⟩
abbrev S1x1x1x1 : Shape := ⟨4, ![1, 1, 1, 1]⟩
abbrev S8x128x32x128 : Shape := ⟨4, ![8, 128, 32, 128]⟩
abbrev S8x128x128 : Shape := ⟨3, ![8, 128, 128]⟩
abbrev S65536 : Shape := ⟨1, ![65536]⟩
abbrev S8x128 : Shape := ⟨2, ![8, 128]⟩
abbrev S8x128x65536 : Shape := ⟨3, ![8, 128, 65536]⟩
abbrev S8x65536x128 : Shape := ⟨3, ![8, 65536, 128]⟩
abbrev S1x65536x1 : Shape := ⟨3, ![1, 65536, 1]⟩
abbrev S8x1x128 : Shape := ⟨3, ![8, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S65536x128, .f32⟩
  | .hbm, ⟨3, _⟩ => ⟨S8x128x32, .i32⟩
  | .hbm, ⟨4, _⟩ => ⟨S128x32x128, .f32⟩
  | .hbm, ⟨5, _⟩ => ⟨S1x128x32x128, .f32⟩
  | .hbm, ⟨6, _⟩ => ⟨S8x128x32x1, .i32⟩
  | .hbm, ⟨7, _⟩ => ⟨S_, .i32⟩
  | .hbm, ⟨8, _⟩ => ⟨S8x128x32x1, .i32⟩
  | .hbm, ⟨9, _⟩ => ⟨S8x128x32x1, .i1⟩
  | .hbm, ⟨10, _⟩ => ⟨S_, .i32⟩
  | .hbm, ⟨11, _⟩ => ⟨S8x128x32x1, .i32⟩
  | .hbm, ⟨12, _⟩ => ⟨S8x128x32x1, .i32⟩
  | .hbm, ⟨13, _⟩ => ⟨S8x128x32x1, .i32⟩
  | .hbm, ⟨14, _⟩ => ⟨S128x32x128, .f32⟩
  | .hbm, ⟨15, _⟩ => ⟨S1, .i32⟩
  | .hbm, ⟨16, _⟩ => ⟨S_, .i32⟩
  | .hbm, ⟨17, _⟩ => ⟨S8x128x32x1, .i32⟩
  | .hbm, ⟨18, _⟩ => ⟨S8x128x32x1, .i1⟩
  | .hbm, ⟨19, _⟩ => ⟨S1x1x1x1, .i32⟩
  | .hbm, ⟨20, _⟩ => ⟨S8x128x32x1, .i32⟩
  | .hbm, ⟨21, _⟩ => ⟨S8x128x32x1, .i1⟩
  | .hbm, ⟨22, _⟩ => ⟨S8x128x32x1, .i1⟩
  | .hbm, ⟨23, _⟩ => ⟨S_, .i1⟩
  | .hbm, ⟨24, _⟩ => ⟨S8x128x32, .i1⟩
  | .hbm, ⟨25, _⟩ => ⟨S8x128x32x128, .f32⟩
  | .hbm, ⟨26, _⟩ => ⟨S8x128x32x128, .i1⟩
  | .hbm, ⟨27, _⟩ => ⟨S_, .f32⟩
  | .hbm, ⟨28, _⟩ => ⟨S8x128x32x128, .f32⟩
  | .hbm, ⟨29, _⟩ => ⟨S8x128x32x128, .f32⟩
  | .hbm, ⟨30, _⟩ => ⟨S_, .f32⟩
  | .hbm, ⟨31, _⟩ => ⟨S8x128x128, .f32⟩
  | .hbm, ⟨32, _⟩ => ⟨S_, .f32⟩
  | .hbm, ⟨33, _⟩ => ⟨S8x128x128, .f32⟩
  | .hbm, ⟨34, _⟩ => ⟨S8x128x128, .f32⟩
  | .hbm, ⟨35, _⟩ => ⟨S65536x128, .f32⟩
  | .hbm, ⟨36, _⟩ => ⟨S_, .f32⟩
  | .hbm, ⟨37, _⟩ => ⟨S65536, .f32⟩
  | .hbm, ⟨38, _⟩ => ⟨S8x128x128, .f32⟩
  | .hbm, ⟨39, _⟩ => ⟨S_, .f32⟩
  | .hbm, ⟨40, _⟩ => ⟨S8x128, .f32⟩
  | .hbm, ⟨41, _⟩ => ⟨S8x128x65536, .f32⟩
  | .hbm, ⟨42, _⟩ => ⟨S8x65536x128, .f32⟩
  | .hbm, ⟨43, _⟩ => ⟨S1x65536x1, .f32⟩
  | .hbm, ⟨44, _⟩ => ⟨S8x1x128, .f32⟩
  | .hbm, ⟨45, _⟩ => ⟨S8x65536x128, .f32⟩
  | .hbm, ⟨46, _⟩ => ⟨S8x65536x128, .f32⟩
  | .hbm, ⟨47, _⟩ => ⟨S8x65536x128, .f32⟩
  | .hbm, ⟨48, _⟩ => ⟨S_, .f32⟩
  | .hbm, ⟨49, _⟩ => ⟨S8x65536x128, .f32⟩
  | .hbm, ⟨50, _⟩ => ⟨S8x65536x128, .f32⟩
  | .hbm, ⟨51, _⟩ => ⟨S8x65536x128, .f32⟩
  | .hbm, ⟨52, _⟩ => ⟨S_, .f32⟩
  | .hbm, ⟨53, _⟩ => ⟨S8x65536x128, .f32⟩
  | .hbm, ⟨54, _⟩ => ⟨S8x65536x128, .f32⟩
  | .hbm, ⟨55, _⟩ => ⟨S8x65536x128, .f32⟩
  | .hbm, ⟨56, _⟩ => ⟨S_, .f32⟩
  | .hbm, ⟨57, _⟩ => ⟨S65536x128, .f32⟩
  | .hbm, ⟨58, _⟩ => ⟨S_, .f32⟩
  | .hbm, ⟨59, _⟩ => ⟨S65536x128, .f32⟩
  | .hbm, ⟨60, _⟩ => ⟨S65536x128, .f32⟩
  | .hbm, ⟨61, _⟩ => ⟨S65536x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_5 : Ref sig .tc := ⟨.hbm, 56, rfl⟩
abbrev main_v24 : Ref sig .tc := ⟨.hbm, 57, rfl⟩
abbrev main_cst_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]

class Facts₀ : Prop where
  shapeCasts_S4096x128_S128x32x128 : S4096x128.ShapeCasts S128x32x128
  bcast_S128x32x128_S1x128x32x128_1_2_3 : S128x32x128.BroadcastsInDim S1x128x32x128 (![1, 2, 3] : Fin 3 → Fin S1x128x32x128.rank)
  bcast_S8x128x32_S8x128x32x1_0_1_2 : S8x128x32.BroadcastsInDim S8x128x32x1 (![0, 1, 2] : Fin 3 → Fin S8x128x32x1.rank)
  bcast_S_S8x128x32x1 : S_.BroadcastsInDim S8x128x32x1 (![] : Fin 0 → Fin S8x128x32x1.rank)
  shapeCasts_S1x128x32x128_S128x32x128 : S1x128x32x128.ShapeCasts S128x32x128
  bcast_S1_S1x1x1x1_3 : S1.BroadcastsInDim S1x1x1x1 (![3] : Fin 1 → Fin S1x1x1x1.rank)
  bcast_S1x1x1x1_S8x128x32x1_0_1_2_3 : S1x1x1x1.BroadcastsInDim S8x128x32x1 (![0, 1, 2, 3] : Fin 4 → Fin S8x128x32x1.rank)
  reducesTo_S8x128x32x1_S8x128x32_d3 : S8x128x32x1.ReducesTo [3] S8x128x32
  h_S_ : 0 < S_.numel
  bcast_S8x128x32_S8x128x32x128_0_1_2 : S8x128x32.BroadcastsInDim S8x128x32x128 (![0, 1, 2] : Fin 3 → Fin S8x128x32x128.rank)
  bcast_S_S8x128x32x128 : S_.BroadcastsInDim S8x128x32x128 (![] : Fin 0 → Fin S8x128x32x128.rank)
  reducesTo_S8x128x32x128_S8x128x128_d2 : S8x128x32x128.ReducesTo [2] S8x128x128
  bcast_S_S8x128x128 : S_.BroadcastsInDim S8x128x128 (![] : Fin 0 → Fin S8x128x128.rank)
  reducesTo_S65536x128_S65536_d1 : S65536x128.ReducesTo [1] S65536
  reducesTo_S8x128x128_S8x128_d2 : S8x128x128.ReducesTo [2] S8x128
  transposes_S8x128x65536_S8x65536x128_0_2_1 : S8x128x65536.Transposes [0, 2, 1] S8x65536x128
  bcast_S65536_S1x65536x1_1 : S65536.BroadcastsInDim S1x65536x1 (![1] : Fin 1 → Fin S1x65536x1.rank)
  bcast_S8x128_S8x1x128_0_2 : S8x128.BroadcastsInDim S8x1x128 (![0, 2] : Fin 2 → Fin S8x1x128.rank)
  bcast_S1x65536x1_S8x65536x128_0_1_2 : S1x65536x1.BroadcastsInDim S8x65536x128 (![0, 1, 2] : Fin 3 → Fin S8x65536x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  reducesTo_S8x65536x128_S65536x128_d0 : S8x65536x128.ReducesTo [0] S65536x128
  bcast_S_S65536x128 : S_.BroadcastsInDim S65536x128 (![] : Fin 0 → Fin S65536x128.rank)
  gather_S128x32x128_S8x128x32x1_S8x128x32x128_3_1_0_1_1_3_11128_wf : GatherDims.WF S128x32x128 S8x128x32x1 S8x128x32x128 [3] [1] [0] [1] [1] 3 ![1, 1, 128]
  dot_S8x128x128_S65536x128_S8x128x65536_2_1_01_0_n_n_wf : DotDims.WF S8x128x128 S65536x128 S8x128x65536 [2] [1] [0, 1] [0] [] []

variable [Facts₀]

def gather_S128x32x128_S8x128x32x1_S8x128x32x128_3_1_0_1_1_3_11128 : GatherDims S128x32x128 S8x128x32x1 S8x128x32x128 where
  offsetDims := [3]
  collapsedSliceDims := [1]
  operandBatchingDims := [0]
  startIndicesBatchingDims := [1]
  startIndexMap := [1]
  indexVectorDim := 3
  sliceSizes := ![1, 1, 128]
  wf := gather_S128x32x128_S8x128x32x1_S8x128x32x128_3_1_0_1_1_3_11128_wf
def dot_S8x128x128_S65536x128_S8x128x65536_2_1_01_0_n_n : DotDims S8x128x128 S65536x128 S8x128x65536 where
  lhsContracting := [2]
  rhsContracting := [1]
  lhsNonContracting := [0, 1]
  rhsNonContracting := [0]
  lhsBatch := []
  rhsBatch := []
  wf := dot_S8x128x128_S65536x128_S8x128x65536_2_1_01_0_n_n_wf

class Facts : Prop extends Facts₀ where

variable [Facts]
-- ==== Proof.Spec.lean ====
/-
  The mathematics both programs compute, stated over plain functions into the extended reals, and the one law
  that joins their two arrangements.

  Write q for the query array [65536, 128] and P for the prototype array [8, 128, 128] (bootstrap sample b, class c,
  feature d). For a query row n, a bootstrap sample b and a class c the squared distance is expanded as
      ‖q_n‖² + ‖P_{b,c}‖² − 2 · ⟨q_n, P_{b,c}⟩,
  clamped below at zero, and its square root is the distance D_b(n, c) ≥ 0. The result at (n, c) is minus the mean of
  the eight distances.

  The reference sums the eight distances from zero, divides by 8 and negates. The kernel starts from zero, subtracts
  the distances one after the other and multiplies by 1/8. On the extended reals a distance may be +∞, so the step
  −a − b = −(a + b) is not free: it holds because no distance is −∞ (each is a square root of a number clamped at 0),
  which is what `neg_sub_of_nonneg` uses. Division by the real 8 is the product with the real 1/8 at the infinities too.
  The two squared norms and the inner product differ only in the order of a product's factors and in a leading zero.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The query array's shape. -/
abbrev SQ : Shape := ⟨2, ![65536, 128]⟩
/-- The prototype array's shape: bootstrap sample, class, feature. -/
abbrev SP : Shape := ⟨3, ![8, 128, 128]⟩

/-- The float words the programs spell: +0.0, 2.0, 8.0 and 0.125. -/
abbrev zero : EReal := Ideal.ofBits .f32 0x00000000#32
abbrev two : EReal := Ideal.ofBits .f32 0x40000000#32
abbrev eight : EReal := Ideal.ofBits .f32 0x41000000#32
abbrev eighth : EReal := Ideal.ofBits .f32 0x3E000000#32

/-! ## The literals -/

/-- `8.0` denotes the real 8. -/
theorem eight_eq : eight = ((8 : ℝ) : EReal) := by
  simp [eight, Ideal.ofBits, Ideal.ieee, -EReal.coe_mul]; norm_num

/-- `0.125` denotes the real 1/8. -/
theorem eighth_eq : eighth = ((1 / 8 : ℝ) : EReal) := by
  simp [eighth, Ideal.ofBits, Ideal.ieee, -EReal.coe_mul]; norm_num

theorem zero_eq : zero = 0 := Ideal.ofBits_zero_f32

/-! ## The reference's reading -/

/-- ‖q_n‖², as the host sums it: from the zero word. -/
def qq (q : SQ.Idx → EReal) (n : Fin 65536) : EReal := zero + ∑ d : Fin 128, q (ix2 n d) * q (ix2 n d)

/-- ‖P_{b,c}‖², as the host sums it: from the zero word. -/
def pp (P : SP.Idx → EReal) (b : Fin 8) (c : Fin 128) : EReal := zero + ∑ d : Fin 128, P (ix3 b c d) * P (ix3 b c d)

/-- ⟨P_{b,c}, q_n⟩, prototype factor first (the reference's einsum). -/
def pq (q : SQ.Idx → EReal) (P : SP.Idx → EReal) (b : Fin 8) (n : Fin 65536) (c : Fin 128) : EReal :=
  ∑ d : Fin 128, P (ix3 b c d) * q (ix2 n d)

/-- The distance from query row n to prototype (b, c): the square root of the expanded square, clamped at zero. -/
def dist (q : SQ.Idx → EReal) (P : SP.Idx → EReal) (b : Fin 8) (n : Fin 65536) (c : Fin 128) : EReal :=
  Ideal.sqrt (max ((qq q n + pp P b c) - two * pq q P b n c) zero)

/-- The reference's result at query row n and class c: minus the quotient by 8 of the eight distances summed from zero. -/
def Gc (q : SQ.Idx → EReal) (P : SP.Idx → EReal) (n : Fin 65536) (c : Fin 128) : EReal :=
  -(Ideal.div (zero + ∑ b : Fin 8, dist q P b n c) eight)

/-- The reference's result as one function on the result array's indices. -/
def G (q : SQ.Idx → EReal) (P : SP.Idx → EReal) : SQ.Idx → EReal := fun i => Gc q P (i 0) (i 1)

/-! ## The kernel's reading -/

/-- ‖q_n‖² as the kernel's lane reduction gives it: the bare sum. -/
def qqK (q : SQ.Idx → EReal) (n : Fin 65536) : EReal := ∑ d : Fin 128, q (ix2 n d) * q (ix2 n d)

/-- ⟨q_n, P_{b,c}⟩, query factor first (the kernel's matrix product). -/
def qpK (q : SQ.Idx → EReal) (P : SP.Idx → EReal) (b : Fin 8) (n : Fin 65536) (c : Fin 128) : EReal :=
  ∑ d : Fin 128, q (ix2 n d) * P (ix3 b c d)

/-- The kernel's distance term. -/
def distK (q : SQ.Idx → EReal) (P : SP.Idx → EReal) (b : Fin 8) (n : Fin 65536) (c : Fin 128) : EReal :=
  Ideal.sqrt (max ((qqK q n + pp P b c) - two * qpK q P b n c) zero)

/-- The kernel's result at query row n and class c: zero less the eight distances in turn, times 1/8. -/
def Kc (q : SQ.Idx → EReal) (P : SP.Idx → EReal) (n : Fin 65536) (c : Fin 128) : EReal :=
  ((((((((zero - distK q P 0 n c) - distK q P 1 n c) - distK q P 2 n c) - distK q P 3 n c) - distK q P 4 n c)
    - distK q P 5 n c) - distK q P 6 n c) - distK q P 7 n c) * eighth

/-- The kernel's result as one function on the result array's indices. -/
def K (q : SQ.Idx → EReal) (P : SP.Idx → EReal) : SQ.Idx → EReal := fun i => Kc q P (i 0) (i 1)

/-! ## The law -/

/-- A square root of a nonnegative extended real is nonnegative (+∞ included). -/
theorem sqrt_nonneg {y : EReal} (hy : 0 ≤ y) : 0 ≤ Ideal.sqrt y := by
  induction y using EReal.rec with
  | bot => exact absurd hy (by simp)
  | coe r =>
    have hr : 0 ≤ r := by exact_mod_cast hy
    rw [Ideal.sqrt_coe, if_neg (not_lt.mpr hr)]
    exact_mod_cast Real.sqrt_nonneg r
  | top => rw [Ideal.sqrt_top]; exact le_top

/-- Every distance is nonnegative: it is a square root of a maximum with zero. -/
theorem dist_nonneg (q : SQ.Idx → EReal) (P : SP.Idx → EReal) (b : Fin 8) (n : Fin 65536) (c : Fin 128) :
    0 ≤ dist q P b n c := by
  unfold dist
  exact sqrt_nonneg (le_max_of_le_right (le_of_eq zero_eq.symm))

/-- The two readings of a distance agree: a leading zero, and the order of each product's factors. -/
theorem distK_eq (q : SQ.Idx → EReal) (P : SP.Idx → EReal) (b : Fin 8) (n : Fin 65536) (c : Fin 128) :
    distK q P b n c = dist q P b n c := by
  unfold distK dist
  have h1 : qqK q n = qq q n := by unfold qqK qq; rw [zero_eq, zero_add]
  have h2 : qpK q P b n c = pq q P b n c := by
    unfold qpK pq; exact Finset.sum_congr rfl fun d _ => mul_comm _ _
  rw [h1, h2]

/-- A nonnegative extended real is not −∞. -/
theorem ne_bot_of_nonneg {a : EReal} (ha : 0 ≤ a) : a ≠ ⊥ :=
  (lt_of_lt_of_le EReal.bot_lt_zero ha).ne'

/-- For nonnegative a, b (either may be +∞): −a − b = −(a + b). -/
theorem neg_sub_of_nonneg {a b : EReal} (ha : 0 ≤ a) (hb : 0 ≤ b) : -a - b = -(a + b) :=
  (EReal.neg_add (Or.inl (ne_bot_of_nonneg ha)) (Or.inr (ne_bot_of_nonneg hb))).symm

/-- Zero less eight nonnegative terms in turn is minus their sum. -/
theorem sub_chain (d : Fin 8 → EReal) (hd : ∀ b, 0 ≤ d b) :
    ((((((((0 : EReal) - d 0) - d 1) - d 2) - d 3) - d 4) - d 5) - d 6) - d 7 = -(∑ b : Fin 8, d b) := by
  rw [Fin.sum_univ_eight, zero_sub]
  rw [neg_sub_of_nonneg (hd 0) (hd 1)]
  rw [neg_sub_of_nonneg (add_nonneg (hd 0) (hd 1)) (hd 2)]
  rw [neg_sub_of_nonneg (add_nonneg (add_nonneg (hd 0) (hd 1)) (hd 2)) (hd 3)]
  rw [neg_sub_of_nonneg (add_nonneg (add_nonneg (add_nonneg (hd 0) (hd 1)) (hd 2)) (hd 3)) (hd 4)]
  rw [neg_sub_of_nonneg (add_nonneg (add_nonneg (add_nonneg (add_nonneg (hd 0) (hd 1)) (hd 2)) (hd 3)) (hd 4)) (hd 5)]
  rw [neg_sub_of_nonneg (add_nonneg (add_nonneg (add_nonneg (add_nonneg (add_nonneg (hd 0) (hd 1)) (hd 2)) (hd 3)) (hd 4)) (hd 5)) (hd 6)]
  rw [neg_sub_of_nonneg (add_nonneg (add_nonneg (add_nonneg (add_nonneg (add_nonneg (add_nonneg (hd 0) (hd 1)) (hd 2)) (hd 3)) (hd 4)) (hd 5)) (hd 6)) (hd 7)]

/-- THE LAW at a query row and a class: the kernel's arrangement is the reference's. -/
theorem Kc_eq_Gc (q : SQ.Idx → EReal) (P : SP.Idx → EReal) (n : Fin 65536) (c : Fin 128) : Kc q P n c = Gc q P n c := by
  unfold Kc Gc
  rw [distK_eq, distK_eq, distK_eq, distK_eq, distK_eq, distK_eq, distK_eq, distK_eq]
  rw [zero_eq, sub_chain (fun b => dist q P b n c) (fun b => dist_nonneg q P b n c),
    zero_add, eight_eq, Ideal.div_coe (by norm_num : (8 : ℝ) ≠ 0), eighth_eq, neg_mul]

/-- THE LAW, index by index over the result array. -/
theorem K_eq_G (q : SQ.Idx → EReal) (P : SP.Idx → EReal) : K q P = G q P :=
  funext fun i => Kc_eq_Gc q P (i 0) (i 1)

end Cert.Spec

end
-- ==== Proof.RefSpec.lean ====
/-
  The reference's result, read one element at a time, is the specification's `G` of the query array and of the
  prototype array the reference's own first operations compute (the bootstrap gather and the per-class mean, stage
  `val_main_v6`, which is not opened here: both programs compute it by the same operations).

  At result index (n, c): the negation of the quotient by 8.0 of zero plus the sum over the bootstrap sample b of
  sqrt (max ((‖q_n‖² + ‖P_{b,c}‖²) − 2 · ⟨P_{b,c}, q_n⟩, 0)); the squared norms are host sums from zero over the
  feature axis, the inner product the contraction of the einsum, read through the transposition that moves the
  class axis last. The work is identifying the composed index maps of the layout operations with coordinates.
-/
import proofs.«129654_j83399674953870_1_alg».proof.Proof.RefRead
import proofs.«129654_j83399674953870_1_alg».proof.Proof.Spec

noncomputable section

open scoped BigOperators

namespace Cert.ReferenceIdeal.RefSpec

open Cert.ReferenceIdeal Cert.ReferenceIdeal.ReadP Idealize.ShloMosaic Idealize.ShloMosaic.ValueIdx

/-- The feature d of query row n, through the broadcasts that carry ‖q_n‖² to every (b, n, c). -/
theorem idx_qq (n : Fin 65536) (c : Fin 128) (b : Fin 8) (d : Fin 128) :
    idx_main_v8 (idx_main_v13 (idx_main_v15 (idx_main_v24 (ix2 n c) b))) d = ix2 n d :=
  funext fun a => Fin.ext (by match a with | ⟨0, _⟩ => rfl | ⟨1, _⟩ => rfl)

/-- The feature d of prototype (b, c), through the broadcasts that carry ‖P_{b,c}‖² to every (b, n, c). -/
theorem idx_pp (n : Fin 65536) (c : Fin 128) (b : Fin 8) (d : Fin 128) :
    idx_main_v10 (idx_main_v14 (idx_main_v16 (idx_main_v24 (ix2 n c) b))) d = ix3 b c d :=
  funext fun a => Fin.ext (by match a with | ⟨0, _⟩ => rfl | ⟨1, _⟩ => rfl | ⟨2, _⟩ => rfl)

/-- The contraction's left factor: prototype (b, c) at feature d, through the transposition. -/
theorem idx_l (n : Fin 65536) (c : Fin 128) (b : Fin 8) (d : Fin 128) :
    lidx_main_v11 (idx_main_v12 (idx_main_v24 (ix2 n c) b)) d = ix3 b c d :=
  funext fun a => Fin.ext (by match a with | ⟨0, _⟩ => rfl | ⟨1, _⟩ => rfl | ⟨2, _⟩ => rfl)

/-- The contraction's right factor: query row n at feature d, through the transposition. -/
theorem idx_r (n : Fin 65536) (c : Fin 128) (b : Fin 8) (d : Fin 128) :
    ridx_main_v11 (idx_main_v12 (idx_main_v24 (ix2 n c) b)) d = ix2 n d :=
  funext fun a => Fin.ext (by match a with | ⟨0, _⟩ => rfl | ⟨1, _⟩ => rfl)

/-- The reference's result is `G` of the query array and the prototype stage. -/
theorem ref_eq (x0 : (⟨S4096x128, .f32⟩ : BufTy).Contents (Elt Ideal)) (x2 : (⟨S65536x128, .f32⟩ : BufTy).Contents (Elt Ideal))
    (x3 : (⟨S8x128x32, .i32⟩ : BufTy).Contents (Elt Ideal)) :
    val_main_v27 (F := Ideal) x0 x2 x3 = Cert.Spec.G x2 (val_main_v6 (F := Ideal) x0 x3) := by
  funext i
  obtain ⟨n, c, rfl⟩ : ∃ (n : Fin 65536) (c : Fin 128), i = ix2 n c := ⟨i 0, i 1, eq_ix2 i⟩
  generalize hP : val_main_v6 (F := Ideal) x0 x3 = P
  simp only [val_main_v27_apply, val_main_v26_apply, val_main_v25_apply, val_main_cst_6_apply, val_main_v24_apply,
    val_main_cst_5_apply, val_main_v23_apply, val_main_v22_apply, val_main_v21_apply, val_main_cst_4_apply,
    val_main_v20_apply, val_main_v19_apply, val_main_v18_apply, val_main_cst_3_apply, val_main_v17_apply,
    val_main_v16_apply, val_main_v15_apply, val_main_v14_apply, val_main_v13_apply, val_main_v12_apply,
    val_main_v11_apply, val_main_v10_apply, val_main_cst_2_apply, val_main_v9_apply, val_main_v8_apply,
    val_main_cst_1_apply, val_main_v7_apply, hP, idx_qq, idx_pp, idx_l, idx_r,
    Ideal.hostNegf_def, Ideal.negf_def, Ideal.hostDivf_def, Ideal.hostUnary_sqrt_def, Ideal.maximumf_def, Ideal.subf_def,
    Ideal.addf_def, Ideal.mulf_def, Ideal.ofBits_def]
  rfl

end Cert.ReferenceIdeal.RefSpec

end
-- ==== Proof.KernelBody.lean ====
/-
  What the kernel body leaves in its output block, read one element at a time at the extended reals.

  The body handles 2048 query rows at once. From the query block x it forms each row's squared norm (a lane sum of
  x·x, kept as a column) and, for each of the eight bootstrap samples b in turn, loads the 128 columns
  [128·b, 128·b + 128) of the transposed prototype matrix and of the prototype squared norms, multiplies the query
  block into those columns, and subtracts from the running value the distance
      sqrt (max ((‖x_p‖² + ‖P‖²) − 2 · ⟨x_p, P⟩, 0)).
  The running value starts at zero and the result is scaled by 0.125. `step` is one such subtraction as vector
  operations; the body's stored value is eight `step`s (a definitional unfolding); `step_apply` reads one at row p
  and class c: the broadcasts pick row p of the norm column and column c of the loaded norm row, and the matrix
  product into a zero accumulator is the sum over the feature axis.
-/
import proofs.«129654_j83399674953870_1_alg».proof.Proof.Gen.KernelIdeal.Frame
import proofs.«129654_j83399674953870_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Idealize.ShloMosaic.TcCoe

section Generic

variable {F : FTy → Type} [FloatOps F]

/-- One bootstrap sample's step: the running value less the distance to the loaded prototype columns. `v1` is the
    query block (narrowed), `v4` the column of the rows' squared norms, `w` the loaded columns of the transposed
    prototypes, `pb` the loaded squared norms of those prototypes. -/
def step (v1 : FVec F S2048x128 .bf16) (v4 : FVec F S2048x1 .f32) (acc : FVec F S2048x128 .f32) (w : Vec F S128x128 .bf16)
    (pb : Vec F S1x128 .f32) : FVec F S2048x128 .f32 :=
  subf acc (sqrt (maximumf (subf (addf (broadcastTo S2048x128 v4 broadcasts_S2048x1_S2048x128)
      (broadcastTo S2048x128 (shapeCast S1x128 pb shapeCasts_S1x128_S1x128) broadcasts_S1x128_S2048x128))
    (mulf (broadcast S2048x128 (Scalar.ofBits .f32 0x40000000#32))
      (matmul dot_S2048x128_S128x128_S2048x128_1_0_0_1_n_n none v1 (shapeCast S128x128 w shapeCasts_S128x128_S128x128) (constant S2048x128 .f32 0x00000000#32))))
    (broadcast S2048x128 (Scalar.ofBits .f32 0x00000000#32))))

/-- The body's stored value: from the zero block, eight steps over the eight column groups, then the scaling. -/
def stored (x0 : Vec F S2048x128 .f32) (x1 : Vec F S128x1024 .bf16) (x2 : Vec F S1x1024 .f32) : FVec F S2048x128 .f32 :=
  mulf (step (k0_pay2 (View.ld x0 r0_0)) (k0_pay3 (View.ld x0 r0_0))
    (step (k0_pay2 (View.ld x0 r0_0)) (k0_pay3 (View.ld x0 r0_0))
    (step (k0_pay2 (View.ld x0 r0_0)) (k0_pay3 (View.ld x0 r0_0))
    (step (k0_pay2 (View.ld x0 r0_0)) (k0_pay3 (View.ld x0 r0_0))
    (step (k0_pay2 (View.ld x0 r0_0)) (k0_pay3 (View.ld x0 r0_0))
    (step (k0_pay2 (View.ld x0 r0_0)) (k0_pay3 (View.ld x0 r0_0))
    (step (k0_pay2 (View.ld x0 r0_0)) (k0_pay3 (View.ld x0 r0_0))
    (step (k0_pay2 (View.ld x0 r0_0)) (k0_pay3 (View.ld x0 r0_0))
      (broadcast S2048x128 (Scalar.ofBits .f32 0x00000000#32))
      (View.ld x1 r0_1) (View.ld x2 r0_2))
      (View.ld x1 r0_3) (View.ld x2 r0_4))
      (View.ld x1 r0_5) (View.ld x2 r0_6))
      (View.ld x1 r0_7) (View.ld x2 r0_8))
      (View.ld x1 r0_9) (View.ld x2 r0_10))
      (View.ld x1 r0_11) (View.ld x2 r0_12))
      (View.ld x1 r0_13) (View.ld x2 r0_14))
      (View.ld x1 r0_15) (View.ld x2 r0_16))
    (broadcast S2048x128 (Scalar.ofBits .f32 0x3E000000#32))

theorem hz : (![0, 0] : Fin 2 → Nat) = fun _ => 0 := funext fun a => by fin_cases a <;> rfl

/-- What the body leaves in the output block is that stored value: its one store covers the block. -/
theorem out_eq_stored (x0 : Vec F S2048x128 .f32) (x1 : Vec F S128x1024 .bf16) (x2 : Vec F S1x1024 .f32) :
    out0_3 x0 x1 x2 = stored x0 x1 x2 := by
  unfold out0_3
  rw [View.canon_unit_zero hz]
  rfl

end Generic

/-! ## At the extended reals -/

theorem lhs_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The block product into a zero accumulator at (p, c): the sum over the feature axis of row p of the left factor
    times column c of the right. -/
theorem matmul_ix (l : FVec Ideal S2048x128 .bf16) (r : FVec Ideal S128x128 .bf16) (p : Fin 2048) (c : Fin 128) :
    matmul dot_S2048x128_S128x128_S2048x128_1_0_0_1_n_n none l r (constant S2048x128 .f32 0x00000000#32) (ix2 p c)
      = ∑ d : Fin 128, l (ix2 p d) * r (ix2 d c) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p c) ((contrEquiv1 dot_S2048x128_S128x128_S2048x128_1_0_0_1_n_n 128 rfl rfl).symm k) = ix2 p k := funext fun a => Fin.ext (by
    match a with
    | ⟨0, _⟩ => exact lhs_0 _ _
    | ⟨1, _⟩ => exact (lhs_1 _ _).trans hk)
  have er : dot_S2048x128_S128x128_S2048x128_1_0_0_1_n_n.rhsIdx (ix2 p c) ((contrEquiv1 dot_S2048x128_S128x128_S2048x128_1_0_0_1_n_n 128 rfl rfl).symm k) = ix2 k c := funext fun a => Fin.ext (by
    match a with
    | ⟨0, _⟩ => exact (rhs_0 _ _).trans hk
    | ⟨1, _⟩ => exact rhs_1 _ _)
  rw [el, er]

/-- One step at row p and class c. -/
theorem step_apply (v1 : FVec Ideal S2048x128 .bf16) (v4 : FVec Ideal S2048x1 .f32) (acc : FVec Ideal S2048x128 .f32)
    (w : Vec Ideal S128x128 .bf16) (pb : Vec Ideal S1x128 .f32) (p : Fin 2048) (c : Fin 128) :
    step v1 v4 acc w pb (ix2 p c) = acc (ix2 p c)
      - Ideal.sqrt (max ((v4 (ix2 p 0) + pb (ix2 0 c)) - Cert.Spec.two * ∑ d : Fin 128, v1 (ix2 p d) * w (ix2 d c)) Cert.Spec.zero) := by
  have e1 : broadcastTo S2048x128 v4 broadcasts_S2048x1_S2048x128 (ix2 p c) = v4 (ix2 p 0) :=
    broadcastTo_apply v4 _ (ix2 p c) (ix2 p 0) (fun a => match a with
      | ⟨0, _⟩ => by show p.val = if (2048 : Nat) = 1 then 0 else p.val; rw [if_neg (by decide)]
      | ⟨1, _⟩ => by show 0 = if (1 : Nat) = 1 then 0 else c.val; rw [if_pos rfl])
  have e2 : broadcastTo S2048x128 (shapeCast S1x128 pb shapeCasts_S1x128_S1x128) broadcasts_S1x128_S2048x128 (ix2 p c) = pb (ix2 0 c) := by
    rw [shapeCast_self]
    exact broadcastTo_apply pb _ (ix2 p c) (ix2 0 c) (fun a => match a with
      | ⟨0, _⟩ => by show 0 = if (1 : Nat) = 1 then 0 else p.val; rw [if_pos rfl]
      | ⟨1, _⟩ => by show c.val = if (128 : Nat) = 1 then 0 else c.val; rw [if_neg (by decide)])
  have e3 := matmul_ix v1 (shapeCast S128x128 w shapeCasts_S128x128_S128x128) p c
  show acc (ix2 p c) - Ideal.sqrt (max ((broadcastTo S2048x128 v4 broadcasts_S2048x1_S2048x128 (ix2 p c)
      + broadcastTo S2048x128 (shapeCast S1x128 pb shapeCasts_S1x128_S1x128) broadcasts_S1x128_S2048x128 (ix2 p c))
      - Cert.Spec.two * matmul dot_S2048x128_S128x128_S2048x128_1_0_0_1_n_n none v1 (shapeCast S128x128 w shapeCasts_S128x128_S128x128) (constant S2048x128 .f32 0x00000000#32) (ix2 p c)) Cert.Spec.zero) = _
  rw [e1, e2, e3, shapeCast_self]

end Cert.KernelIdeal.Body

end
-- ==== Proof.KernelStored.lean ====
/-
  The kernel body's stored value at row p of its query block and class c, in the specification's words.

  Given what the three input blocks hold — row p of the query block is query row n(p); column 128·b + c of the
  transposed prototype block at feature d is P (b, c, d); entry 128·b + c of the norm row is ‖P_{b,c}‖² — the stored
  value is the specification's kernel arrangement `Kc` at (n(p), c): the row's squared norm is the lane sum of the
  squares, each loaded column group [128·b, 128·b + 128) supplies sample b's prototypes, and the eight steps subtract
  the eight distances from zero before the scaling by 0.125.
-/
import proofs.«129654_j83399674953870_1_alg».proof.Proof.KernelBody

noncomputable section

open scoped BigOperators

namespace Cert.KernelIdeal.Body

open Cert.KernelIdeal Cert.KernelIdeal.Gen Idealize.ShloMosaic Idealize.ShloMosaic.ValueIdx Idealize.ShloMosaic.TcCoe

/-- The column of squared norms at row p: the lane sum of the row's squares. -/
theorem sqnorm_apply (x : Vec Ideal S2048x128 .f32) (p : Fin 2048) :
    k0_pay3 x (ix2 p 0) = ∑ d : Fin 128, x (ix2 p d) * x (ix2 p d) := by
  unfold k0_pay3
  refine (shapeCast_apply _ shapeCasts_S2048_S2048x1 (ix2 p 0) (ix1 p) (by
    rw [Shape.rowMajor_val_one, Shape.rowMajor_val_two]
    show p.val = p.val * 1 + 0
    omega)).trans ?_
  refine (Ideal.multiReduction_add_single (mulf x x) 0x00000000#32 reduces_S2048x128_S2048 (.inl rfl) rfl (ix1 p)).trans ?_
  refine Finset.sum_congr rfl fun k _ => ?_
  have e : reduces_S2048x128_S2048.lift (ix1 p) k = ix2 p k :=
    funext fun a => Fin.ext (by match a with | ⟨0, _⟩ => rfl | ⟨1, _⟩ => rfl)
  rw [e]
  rfl

/-- A load of 128 columns of the transposed prototype block starting at column `off`, at (d, c): the block at
    (d, off + c). -/
theorem ld_cols (x1 : Vec Ideal S128x1024 .bf16) (off : Nat)
    (inb : ∀ a, (![0, off] : Fin 2 → Nat) a + S128x128.size a ≤ S128x1024.size a) (d c : Fin 128) (j : Fin 1024)
    (hj : j.val = off + c.val) :
    View.ld x1 (Rect.unit (s := S128x1024) ![0, off] S128x128.size inb) (ix2 d c) = x1 (ix2 d j) := by
  show x1 ((Rect.unit (s := S128x1024) ![0, off] S128x128.size inb).emb (ix2 d c)) = x1 (ix2 d j)
  refine congrArg x1 (funext fun a => Fin.ext ?_)
  match a with
  | ⟨0, _⟩ => show 0 + 1 * d.val = d.val; omega
  | ⟨1, _⟩ => show off + 1 * c.val = j.val; omega

/-- A load of 128 entries of the norm row starting at entry `off`, at (0, c): the row at (0, off + c). -/
theorem ld_row (x2 : Vec Ideal S1x1024 .f32) (off : Nat)
    (inb : ∀ a, (![0, off] : Fin 2 → Nat) a + S1x128.size a ≤ S1x1024.size a) (c : Fin 128) (j : Fin 1024)
    (hj : j.val = off + c.val) :
    View.ld x2 (Rect.unit (s := S1x1024) ![0, off] S1x128.size inb) (ix2 0 c) = x2 (ix2 0 j) := by
  show x2 ((Rect.unit (s := S1x1024) ![0, off] S1x128.size inb).emb (ix2 0 c)) = x2 (ix2 0 j)
  refine congrArg x2 (funext fun a => Fin.ext ?_)
  match a with
  | ⟨0, _⟩ => show 0 + 1 * 0 = 0; omega
  | ⟨1, _⟩ => show off + 1 * c.val = j.val; omega

/-- One distance term of the body, from the loaded pieces, is the specification's. -/
theorem dist_of_loads (x0 : Vec Ideal S2048x128 .f32) (w : Vec Ideal S128x128 .bf16) (pb : Vec Ideal S1x128 .f32)
    (q : Cert.Spec.SQ.Idx → EReal) (P : Cert.Spec.SP.Idx → EReal) (n : Fin 65536) (b : Fin 8) (p : Fin 2048) (c : Fin 128)
    (h0 : ∀ d : Fin 128, x0 (ix2 p d) = q (ix2 n d))
    (hw : ∀ d : Fin 128, w (ix2 d c) = P (ix3 b c d))
    (hp : pb (ix2 0 c) = Cert.Spec.pp P b c) :
    Ideal.sqrt (max ((k0_pay3 x0 (ix2 p 0) + pb (ix2 0 c))
        - Cert.Spec.two * ∑ d : Fin 128, k0_pay2 x0 (ix2 p d) * w (ix2 d c)) Cert.Spec.zero)
      = Cert.Spec.distK q P b n c := by
  unfold Cert.Spec.distK Cert.Spec.qqK Cert.Spec.qpK
  rw [sqnorm_apply, hp]
  have e1 : (∑ d : Fin 128, x0 (ix2 p d) * x0 (ix2 p d)) = ∑ d : Fin 128, q (ix2 n d) * q (ix2 n d) :=
    Finset.sum_congr rfl fun d _ => by rw [h0 d]
  have e2 : (∑ d : Fin 128, k0_pay2 x0 (ix2 p d) * w (ix2 d c)) = ∑ d : Fin 128, q (ix2 n d) * P (ix3 b c d) :=
    Finset.sum_congr rfl fun d _ => by
      show x0 (ix2 p d) * w (ix2 d c) = _
      rw [h0 d, hw d]
  rw [e1, e2]

/-- THE STORED VALUE at (p, c) is the specification's kernel arrangement at (n p, c). -/
theorem stored_apply (x0 : Vec Ideal S2048x128 .f32) (x1 : Vec Ideal S128x1024 .bf16) (x2 : Vec Ideal S1x1024 .f32)
    (q : Cert.Spec.SQ.Idx → EReal) (P : Cert.Spec.SP.Idx → EReal) (n : Fin 2048 → Fin 65536)
    (h0 : ∀ (p : Fin 2048) (d : Fin 128), x0 (ix2 p d) = q (ix2 (n p) d))
    (h1 : ∀ (b : Fin 8) (c d : Fin 128) (j : Fin 1024), j.val = 128 * b.val + c.val → x1 (ix2 d j) = P (ix3 b c d))
    (h2 : ∀ (b : Fin 8) (c : Fin 128) (j : Fin 1024), j.val = 128 * b.val + c.val → x2 (ix2 0 j) = Cert.Spec.pp P b c)
    (p : Fin 2048) (c : Fin 128) :
    stored x0 x1 x2 (ix2 p c) = Cert.Spec.Kc q P (n p) c := by
  unfold stored Cert.Spec.Kc
  rw [View.ld_unit_zero (S := S2048x128) hz]
  show step (F := Ideal) _ _ _ _ _ (ix2 p c) * Cert.Spec.eighth = _
  simp only [step_apply]
  have d0 := dist_of_loads x0 (View.ld x1 r0_1) (View.ld x2 r0_2) q P (n p) 0 p c (h0 p)
    (fun d => (ld_cols x1 0 _ d c ⟨0 + c.val, by omega⟩ rfl).trans (h1 0 c d _ (by show 0 + c.val = 128 * 0 + c.val; omega)))
    ((ld_row x2 0 _ c ⟨0 + c.val, by omega⟩ rfl).trans (h2 0 c _ (by show 0 + c.val = 128 * 0 + c.val; omega)))
  have d1 := dist_of_loads x0 (View.ld x1 r0_3) (View.ld x2 r0_4) q P (n p) 1 p c (h0 p)
    (fun d => (ld_cols x1 128 _ d c ⟨128 + c.val, by omega⟩ rfl).trans (h1 1 c d _ (by show 128 + c.val = 128 * 1 + c.val; omega)))
    ((ld_row x2 128 _ c ⟨128 + c.val, by omega⟩ rfl).trans (h2 1 c _ (by show 128 + c.val = 128 * 1 + c.val; omega)))
  have d2 := dist_of_loads x0 (View.ld x1 r0_5) (View.ld x2 r0_6) q P (n p) 2 p c (h0 p)
    (fun d => (ld_cols x1 256 _ d c ⟨256 + c.val, by omega⟩ rfl).trans (h1 2 c d _ (by show 256 + c.val = 128 * 2 + c.val; omega)))
    ((ld_row x2 256 _ c ⟨256 + c.val, by omega⟩ rfl).trans (h2 2 c _ (by show 256 + c.val = 128 * 2 + c.val; omega)))
  have d3 := dist_of_loads x0 (View.ld x1 r0_7) (View.ld x2 r0_8) q P (n p) 3 p c (h0 p)
    (fun d => (ld_cols x1 384 _ d c ⟨384 + c.val, by omega⟩ rfl).trans (h1 3 c d _ (by show 384 + c.val = 128 * 3 + c.val; omega)))
    ((ld_row x2 384 _ c ⟨384 + c.val, by omega⟩ rfl).trans (h2 3 c _ (by show 384 + c.val = 128 * 3 + c.val; omega)))
  have d4 := dist_of_loads x0 (View.ld x1 r0_9) (View.ld x2 r0_10) q P (n p) 4 p c (h0 p)
    (fun d => (ld_cols x1 512 _ d c ⟨512 + c.val, by omega⟩ rfl).trans (h1 4 c d _ (by show 512 + c.val = 128 * 4 + c.val; omega)))
    ((ld_row x2 512 _ c ⟨512 + c.val, by omega⟩ rfl).trans (h2 4 c _ (by show 512 + c.val = 128 * 4 + c.val; omega)))
  have d5 := dist_of_loads x0 (View.ld x1 r0_11) (View.ld x2 r0_12) q P (n p) 5 p c (h0 p)
    (fun d => (ld_cols x1 640 _ d c ⟨640 + c.val, by omega⟩ rfl).trans (h1 5 c d _ (by show 640 + c.val = 128 * 5 + c.val; omega)))
    ((ld_row x2 640 _ c ⟨640 + c.val, by omega⟩ rfl).trans (h2 5 c _ (by show 640 + c.val = 128 * 5 + c.val; omega)))
  have d6 := dist_of_loads x0 (View.ld x1 r0_13) (View.ld x2 r0_14) q P (n p) 6 p c (h0 p)
    (fun d => (ld_cols x1 768 _ d c ⟨768 + c.val, by omega⟩ rfl).trans (h1 6 c d _ (by show 768 + c.val = 128 * 6 + c.val; omega)))
    ((ld_row x2 768 _ c ⟨768 + c.val, by omega⟩ rfl).trans (h2 6 c _ (by show 768 + c.val = 128 * 6 + c.val; omega)))
  have d7 := dist_of_loads x0 (View.ld x1 r0_15) (View.ld x2 r0_16) q P (n p) 7 p c (h0 p)
    (fun d => (ld_cols x1 896 _ d c ⟨896 + c.val, by omega⟩ rfl).trans (h1 7 c d _ (by show 896 + c.val = 128 * 7 + c.val; omega)))
    ((ld_row x2 896 _ c ⟨896 + c.val, by omega⟩ rfl).trans (h2 7 c _ (by show 896 + c.val = 128 * 7 + c.val; omega)))
  rw [d0, d1, d2, d3, d4, d5, d6, d7]
  rfl

/-- The same at any index of the block. -/
theorem stored_apply' (x0 : Vec Ideal S2048x128 .f32) (x1 : Vec Ideal S128x1024 .bf16) (x2 : Vec Ideal S1x1024 .f32)
    (q : Cert.Spec.SQ.Idx → EReal) (P : Cert.Spec.SP.Idx → EReal) (n : Fin 2048 → Fin 65536)
    (h0 : ∀ (p : Fin 2048) (d : Fin 128), x0 (ix2 p d) = q (ix2 (n p) d))
    (h1 : ∀ (b : Fin 8) (c d : Fin 128) (j : Fin 1024), j.val = 128 * b.val + c.val → x1 (ix2 d j) = P (ix3 b c d))
    (h2 : ∀ (b : Fin 8) (c : Fin 128) (j : Fin 1024), j.val = 128 * b.val + c.val → x2 (ix2 0 j) = Cert.Spec.pp P b c)
    (j : S2048x128.Idx) :
    stored x0 x1 x2 j = Cert.Spec.Kc q P (n (j 0)) (j 1) := by
  obtain ⟨p, c, rfl⟩ : ∃ (p : Fin 2048) (c : Fin 128), j = ix2 p c := ⟨j 0, j 1, eq_ix2 j⟩
  exact stored_apply x0 x1 x2 q P n h0 h1 h2 p c

end Cert.KernelIdeal.Body

end
-- ==== Proof.KernelHost.lean ====
/-
  What the pallas_call finds in its two small operands, which @main's own operations write before the call.

  Those operations first form the prototype array P [8, 128, 128] (the bootstrap gather of the support rows and the
  mean over the 32 shots) — operation for operation what the reference does first, so it is named here by the
  reference's stage and never opened — and then lay it out for the kernel: P re-read as a [1024, 128] matrix whose row
  128·b + c is prototype (b, c); its transpose [128, 1024] (narrowed, which changes no value at the extended reals); and
  the row of the 1024 squared norms, each a host sum from zero over the feature axis.

  So column 128·b + c of the transposed matrix at feature d is P (b, c, d), and entry 128·b + c of the norm row is
  ‖P_{b,c}‖² as the specification's `pp` spells it.
-/
import proofs.«129654_j83399674953870_1_alg».proof.Proof.Gen.KernelIdeal.Frame
import proofs.«129654_j83399674953870_1_alg».proof.Proof.RefRead
import proofs.«129654_j83399674953870_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

open scoped BigOperators

namespace Cert.KernelIdeal.Host

open Cert.KernelIdeal Cert.KernelIdeal.Gen Idealize.ShloMosaic Idealize.ShloMosaic.ValueIdx Idealize.ShloMosaic.TcCoe
  Idealize.SL.Sem Idealize.ShloMosaic.StableHlo

section Generic

variable {F : FTy → Type} [FloatOps F]
variable (m : (ℓ : Loc nD τ sig) → Buf (Elt F) ℓ)

/-- The prototype array, as a function of the support rows and the bootstrap indices the program was launched with:
    the reference's stage of that name. -/
abbrev protos (c : Dev nD) : FVec F S8x128x128 .f32 :=
  Cert.ReferenceIdeal.ReadP.val_main_v6 (F := F) (m ((c : Thread nD τ).loc main_arg0)) (m ((c : Thread nD τ).loc main_arg3))

/-- The prototypes as a [1024, 128] matrix. -/
abbrev protosFlat (c : Dev nD) : FVec F S1024x128 .f32 := shapeCast S1024x128 (protos m c) shapeCasts_S8x128x128_S1024x128

set_option maxRecDepth 1000000 in
set_option maxHeartbeats 2000000 in
/-- The transposed prototype matrix the call is handed. -/
theorem V_protosT (c : Dev nD) :
    (V m c main_v12 : Vec F S128x1024 .bf16)
      = transpose S128x1024 [1, 0] (truncf .bf16 (protosFlat m c) bitsLt_bf16_f32) transposes_S1024x128_S128x1024_1_0 := by
  dsimp only [V]
  simp only [hostOps0, hostOps0_1, hostOps0_2, List.flatten_cons, List.flatten_nil, List.append_nil, List.cons_append,
    List.nil_append]
  after_results_simp <;> rfl

set_option maxRecDepth 1000000 in
set_option maxHeartbeats 2000000 in
/-- The row of prototype squared norms the call is handed. -/
theorem V_pnorm (c : Dev nD) :
    (V m c main_v10 : Vec F S1x1024 .f32)
      = shapeCast S1x1024 (Host.reduceAdd (mulf (protosFlat m c) (protosFlat m c)) (constant S_ .f32 0x00000000#32)
          reducesTo_S1024x128_S1024_d1 h_S_) shapeCasts_S1024_S1x1024 := by
  dsimp only [V]
  simp only [hostOps0, hostOps0_1, hostOps0_2, List.flatten_cons, List.flatten_nil, List.append_nil, List.cons_append,
    List.nil_append]
  after_results_simp <;> rfl

end Generic

/-! ## At the extended reals -/

variable (m : (ℓ : Loc nD τ sig) → Buf (Elt Ideal) ℓ)

/-- Row 128·b + c of the flat prototype matrix is prototype (b, c). -/
theorem protosFlat_at (cd : Dev nD) (b : Fin 8) (c : Fin 128) (d : Fin 128) (j : Fin 1024) (hj : j.val = 128 * b.val + c.val) :
    protosFlat m cd (ix2 j d) = protos m cd (ix3 b c d) :=
  shapeCast_apply (protos m cd) shapeCasts_S8x128x128_S1024x128 (ix2 j d) (ix3 b c d) (by
    rw [Shape.rowMajor_val_three, Shape.rowMajor_val_two]
    show (b.val * 128 + c.val) * 128 + d.val = j.val * 128 + d.val
    omega)

/-- Column 128·b + c of the transposed matrix, at feature d, is prototype (b, c) at feature d. -/
theorem protosT_at (cd : Dev nD) (b : Fin 8) (c : Fin 128) (d : Fin 128) (j : Fin 1024) (hj : j.val = 128 * b.val + c.val) :
    (V m cd main_v12 : Vec Ideal S128x1024 .bf16) (ix2 d j) = protos m cd (ix3 b c d) := by
  rw [V_protosT]
  refine (transpose_apply [1, 0] _ transposes_S1024x128_S128x1024_1_0 (ix2 d j) (ix2 j d) (fun a => match a with
    | ⟨0, _⟩ => rfl
    | ⟨1, _⟩ => rfl)).trans ?_
  exact protosFlat_at m cd b c d j hj

/-- Entry 128·b + c of the norm row is ‖P_{b,c}‖². -/
theorem pnorm_at (cd : Dev nD) (b : Fin 8) (c : Fin 128) (j : Fin 1024) (hj : j.val = 128 * b.val + c.val) :
    (V m cd main_v10 : Vec Ideal S1x1024 .f32) (ix2 0 j) = Cert.Spec.pp (protos m cd) b c := by
  rw [V_pnorm]
  refine (shapeCast_apply _ shapeCasts_S1024_S1x1024 (ix2 0 j) (ix1 j) (by
    rw [Shape.rowMajor_val_one, Shape.rowMajor_val_two]
    show j.val = 0 * 1024 + j.val
    omega)).trans ?_
  simp only [Host.reduceAdd, Ideal.hostReduceAdd_def]
  rw [Ideal.hostReduceAdd_single reducesTo_S1024x128_S1024_d1 (by decide)]
  unfold Cert.Spec.pp
  refine congrArg₂ (· + ·) rfl (Finset.sum_congr rfl fun k _ => ?_)
  have e : (Shape.Reduces.lift (s := S1024x128) (t := S1024) (a := 1) (by decide) (ix1 j) k) = ix2 j k :=
    funext fun a => Fin.ext (by match a with | ⟨0, _⟩ => rfl | ⟨1, _⟩ => rfl)
  rw [e]
  show protosFlat m cd (ix2 j k) * protosFlat m cd (ix2 j k) = _
  rw [protosFlat_at m cd b c k j hj]

end Cert.KernelIdeal.Host

end
-- ==== Proof.KernelValue.lean ====
/-
  From the blocks to the whole result array, and the kernel's run with its result named.

  The grid has 32 points. Point t is handed rows [2048·t, 2048·t + 2048) of the query array, the whole transposed
  prototype matrix and the whole norm row, and writes back rows [2048·t, 2048·t + 2048) of the result. Its query
  block's row p is therefore query row 2048·t + p, and by what the host operations put in the two small arrays its
  stored value at (p, c) is the specification's kernel arrangement at (2048·t + p, c): point t writes block t of the
  one whole-array function `K`. The 32 blocks tile the 65536 rows (row r lies in block r / 2048), so the result array
  ends as `K`, which is the reference's `G` by the law of the specification.
-/
import proofs.«129654_j83399674953870_1_alg».proof.Proof.Gen.KernelIdeal.Value
import proofs.«129654_j83399674953870_1_alg».proof.Proof.KernelStored
import proofs.«129654_j83399674953870_1_alg».proof.Proof.KernelHost

noncomputable section

open scoped BigOperators

namespace Cert.KernelIdeal.Final

open Cert.KernelIdeal Cert.KernelIdeal.Gen Idealize.ShloMosaic Idealize.ShloMosaic.ValueIdx Idealize.ShloMosaic.TcCoe
  Idealize.SL.Sem
open Idealize.ShloMosaic.Pipeline (Dat)

variable (m : (ℓ : Loc nD τ sig) → Buf (Elt Ideal) ℓ) (ρ : Dev nD → PrngReg)

/-- The query array the program was launched with. -/
abbrev qarr (c : Dev nD) : Cert.Spec.SQ.Idx → EReal := m ((c : Thread nD τ).loc main_arg2)

/-- The printed index maps over the grid: the query and result windows move one block of rows per point, the two
    small windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's query block is query row 2048·t + p. -/
theorem qblk_apply (c : Dev nD) (t : Fin cfg0.N) (p : Fin 2048) (d : Fin 128) (n : Fin 65536)
    (hn : n.val = 2048 * t.val + p.val) :
    (iblk m c 0 t : Vec Ideal S2048x128 .f32) (ix2 p d) = qarr m c (ix2 n d) := by
  obtain ⟨e0, e1, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_0.index t 0 * 2048 + 1 * p.val = n.val; rw [e0, hn]; omega
  | ⟨1, _⟩ => show win0_0.index t 1 * 128 + 1 * d.val = d.val; rw [e1]; omega

/-- Every point's transposed-prototype block is the whole matrix. -/
theorem tblk_apply (c : Dev nD) (t : Fin cfg0.N) (d : Fin 128) (j : Fin 1024) :
    (iblk m c 1 t : Vec Ideal S128x1024 .bf16) (ix2 d j) = (V m c main_v12 : Vec Ideal S128x1024 .bf16) (ix2 d j) := by
  obtain ⟨-, -, e2, e3, -⟩ := idx_facts t
  unfold iblk
  rw [View.read_apply]
  show V m c main_v12 _ = V m c main_v12 _
  congr 1
  funext a
  apply Fin.ext
  match a with
  | ⟨0, _⟩ => show win0_1.index t 0 * 128 + 1 * d.val = d.val; rw [e2]; omega
  | ⟨1, _⟩ => show win0_1.index t 1 * 1024 + 1 * j.val = j.val; rw [e3]; omega

/-- Every point's norm block is the whole norm row. -/
theorem nblk_apply (c : Dev nD) (t : Fin cfg0.N) (j : Fin 1024) :
    (iblk m c 2 t : Vec Ideal S1x1024 .f32) (ix2 0 j) = (V m c main_v10 : Vec Ideal S1x1024 .f32) (ix2 0 j) := by
  obtain ⟨-, -, -, -, e4, e5, -⟩ := idx_facts t
  unfold iblk
  rw [View.read_apply]
  show V m c main_v10 _ = V m c main_v10 _
  congr 1
  funext a
  apply Fin.ext
  match a with
  | ⟨0, _⟩ => show win0_2.index t 0 * 1 + 1 * 0 = 0; rw [e4]
  | ⟨1, _⟩ => show win0_2.index t 1 * 1024 + 1 * j.val = j.val; rw [e5]; omega

/-- The query row that row p of point t's block is. -/
def rowOf (t : Fin cfg0.N) (p : Fin 2048) : Fin 65536 :=
  ⟨2048 * t.val + p.val, by
    have ht : t.val < 32 := lt_of_lt_of_eq t.isLt (N_0 : cfg0.N = 32)
    have hp := p.isLt
    omega⟩

/-- WHAT POINT t WRITES BACK is block t of `K` of the query array and the prototype array. -/
theorem flushed_eq (c : Dev nD) (t : Fin cfg0.N) :
    (dats m 0 c).flushed 3 t
      = ((cfg0.win 3).blk t).view.read (Elt Ideal) (Cert.Spec.K (qarr m c) (Host.protos m c)) := by
  rw [Value.flushed3, Body.out_eq_stored]
  obtain ⟨-, -, -, -, -, -, e6, e7⟩ := idx_facts t
  funext j
  rw [View.read_apply]
  show Body.stored (iblk m c 0 t) (iblk m c 1 t) (iblk m c 2 t) j
    = Cert.Spec.K (qarr m c) (Host.protos m c) (((cfg0.win 3).blk t).view.emb j)
  refine (Body.stored_apply' (iblk m c 0 t) (iblk m c 1 t) (iblk m c 2 t) (qarr m c) (Host.protos m c) (rowOf t)
    (fun p d => qblk_apply m c t p d (rowOf t p) rfl)
    (fun b cc d j' hj' => (tblk_apply m c t d j').trans (Host.protosT_at m c b cc d j' hj'))
    (fun b cc j' hj' => (nblk_apply m c t j').trans (Host.pnorm_at m c b cc j' hj')) j).trans ?_
  have hj0 : (j 0).val < 2048 := (j 0).isLt
  have hj1 : (j 1).val < 128 := (j 1).isLt
  have ea : (((cfg0.win 3).blk t).view.emb j) 0 = rowOf t (j 0) := Fin.ext (by
    show win0_3.index t 0 * 2048 + 1 * (j 0).val = 2048 * t.val + (j 0).val
    rw [e6]; omega)
  have eb : (((cfg0.win 3).blk t).view.emb j) 1 = j 1 := Fin.ext (by
    show win0_3.index t 1 * 128 + 1 * (j 1).val = (j 1).val
    rw [e7]; omega)
  unfold Cert.Spec.K
  rw [ea, eb]

/-- An index of the result array is in point t's block iff each coordinate is in the block's range on its axis. -/
theorem mem_blk (t : Fin cfg0.N) (i : S65536x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v13).slice (win0_3.rect t)).set ↔ _
  rw [View.set_slice_whole, Rect.mem_set_unit]
  exact Iff.rfl

/-- Every row of the result lies in some point's block: row r in block r / 2048. -/
theorem cover (i : S65536x128.Idx) : ∃ t : Fin cfg0.N, (cfg0.win 3).flush t = true ∧ i ∈ ((cfg0.win 3).blk t).view.set := by
  have hi0 : (i 0).val < 65536 := (i 0).isLt
  have hi1 : (i 1).val < 128 := (i 1).isLt
  let t : Fin cfg0.N := ⟨(i 0).val / 2048, by rw [show cfg0.N = 32 from N_0]; omega⟩
  obtain ⟨-, -, -, -, -, -, e6, e7⟩ := idx_facts t
  have ht : t.val = (i 0).val / 2048 := rfl
  refine ⟨t, flush0_3 t, ?_⟩
  rw [mem_blk]
  intro a
  match a with
  | ⟨0, _⟩ => show win0_3.index t 0 * 2048 ≤ (i 0).val ∧ (i 0).val < win0_3.index t 0 * 2048 + 2048; rw [e6, ht]; omega
  | ⟨1, _⟩ => show win0_3.index t 1 * 128 ≤ (i 1).val ∧ (i 1).val < win0_3.index t 1 * 128 + 128; rw [e7]; omega

/-- THE RESULT ARRAY after the run is `K` of the query array and the prototype array. -/
theorem final (c : Dev nD) : (dats m 0 c).arrAt 3 cfg0.N = Cert.Spec.K (qarr m c) (Host.protos m c) :=
  (dats m 0 c).arrAt_eq_of_cover 3 (Cert.Spec.K (qarr m c) (Host.protos m c)) (fun t _ => flushed_eq m c t) (cover)

/-- THE KERNEL'S RUN: it ends with the result array at the reference's `G` of the query array and the prototype array,
    the arguments unchanged. -/
theorem run : θ_run defs (onTc (τ := τ) (main (F := Ideal))) ⟨m, fun _ => 0, ρ⟩ fun r => ∀ c : Dev nD,
      r.2.mem ((c : Thread nD τ).loc main_v13) = Cert.Spec.G (qarr m c) (Host.protos m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (Cert.Spec.K_eq_G _ _)), (h c).2⟩)
    (Value.run_blocks m ρ)

end Cert.KernelIdeal.Final

end
-- ==== Proof.lean ====
/-
  The certificate's proof: the prototypical-network distance kernel against its jnp reference, over the extended reals.

  Both programs first form the prototype array P [8, 128, 128] from the support rows by a bootstrap gather and a mean
  over the 32 shots, by the same operations; it is carried as one unopened term (an out-of-range bootstrap index makes
  an entry −∞, and nothing below needs it finite). For query row n and class c both then compute, for each of the eight
  bootstrap samples b, the distance sqrt (max (‖q_n‖² + ‖P_{b,c}‖² − 2 ⟨q_n, P_{b,c}⟩, 0)), and return minus the mean of
  the eight. The kernel does it for 2048 rows per grid point against the transposed prototype matrix, subtracting the
  distances from zero one after the other and scaling by 1/8; the reference sums them from zero, divides by 8 and negates.

  Proof/Spec.lean states both arrangements and the law joining them (distances are nonnegative, so minus a sum is the
  successive difference even at +∞; division by 8 is the product with 1/8). Proof/RefSpec.lean reads the reference's
  run as the specification; Proof/KernelBody.lean, Proof/KernelStored.lean and Proof/KernelHost.lean read the kernel
  body's stored block and the two arrays the host operations hand it; Proof/KernelValue.lean goes from the 32 blocks
  to the whole result array. The frames of the two kernel programs are the generated ones; the reference's frame is its
  run with the result dropped. The kernel's idealization rewrote no operation, so `preserves` is trivial.
-/
import proofs.«129654_j83399674953870_1_alg».proof.Defs
import proofs.«129654_j83399674953870_1_alg».proof.Proof.Gen.Kernel
import proofs.«129654_j83399674953870_1_alg».proof.Proof.Gen.Kernel.Skeleton
import proofs.«129654_j83399674953870_1_alg».proof.Proof.Gen.Kernel.Launch
import proofs.«129654_j83399674953870_1_alg».proof.Proof.Gen.Kernel.Points
import proofs.«129654_j83399674953870_1_alg».proof.Proof.Gen.Kernel.Frame
import proofs.«129654_j83399674953870_1_alg».proof.Proof.Gen.KernelIdeal
import proofs.«129654_j83399674953870_1_alg».proof.Proof.Gen.KernelIdeal.Skeleton
import proofs.«129654_j83399674953870_1_alg».proof.Proof.Gen.KernelIdeal.Launch
import proofs.«129654_j83399674953870_1_alg».proof.Proof.Gen.KernelIdeal.Points
import proofs.«129654_j83399674953870_1_alg».proof.Proof.Gen.KernelIdeal.Frame
import proofs.«129654_j83399674953870_1_alg».proof.Proof.Gen.ReferenceIdeal
import proofs.«129654_j83399674953870_1_alg».proof.Proof.Gen.Pre_finite_inputs
import proofs.«129654_j83399674953870_1_alg».proof.Proof.Gen.KernelIdeal.Value
import proofs.«129654_j83399674953870_1_alg».proof.Proof.RefRun
import proofs.«129654_j83399674953870_1_alg».proof.Proof.RefRead
import proofs.«129654_j83399674953870_1_alg».proof.Proof.Spec
import proofs.«129654_j83399674953870_1_alg».proof.Proof.RefSpec
import proofs.«129654_j83399674953870_1_alg».proof.Proof.KernelBody
import proofs.«129654_j83399674953870_1_alg».proof.Proof.KernelStored
import proofs.«129654_j83399674953870_1_alg».proof.Proof.KernelHost
import proofs.«129654_j83399674953870_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : @Cert.frame_Kernel Cert.Kernel.Gen.facts Cert.Pre_finite_inputs.Gen.facts :=
  fun m ρ _ => Cert.Kernel.Gen.frame m ρ

/-- The idealized kernel runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RunP.run (F := Ideal) m ρ)

/-- From memories that agree on the arguments both programs end with the result array at `G` of the query array and
    the prototype array: the kernel by its blocks and the law, the reference by reading its run. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.G (Cert.KernelIdeal.Final.qarr m c) (Cert.KernelIdeal.Host.protos m c),
    Cert.KernelIdeal.Final.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v27_eq, Cert.ReferenceIdeal.RefSpec.ref_eq, (hagree c).1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
